-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x2048x1024 : Shape := ⟨3, ![2, 2048, 1024]⟩
abbrev S1x2x1024x64 : Shape := ⟨4, ![1, 2, 1024, 64]⟩
abbrev S1x2x2048x64 : Shape := ⟨4, ![1, 2, 2048, 64]⟩
abbrev S1x1024x128 : Shape := ⟨3, ![1, 1024, 128]⟩
abbrev S1x1x1024x64 : Shape := ⟨4, ![1, 1, 1024, 64]⟩
abbrev S1024x64 : Shape := ⟨2, ![1024, 64]⟩
abbrev S1x1x2048x64 : Shape := ⟨4, ![1, 1, 2048, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩
abbrev S1024x128 : Shape := ⟨2, ![1024, 128]⟩
abbrev S2x2048x16x64 : Shape := ⟨4, ![2, 2048, 16, 64]⟩

abbrev nBuf : Space → Nat
  | .hbm => 7
  | .vmem => 8
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x64, .bf16⟩
  | .hbm, ⟨4, _⟩ => ⟨S2x16x2048x64, .bf16⟩
  | .hbm, ⟨5, _⟩ => ⟨S2x2048x1024, .f32⟩
  | .hbm, ⟨6, _⟩ => ⟨S2x2048x16x64, .f32⟩
  | .local _ .vmem, ⟨0, _⟩ => ⟨S1x2x1024x64, .f32⟩
  | .local _ .vmem, ⟨1, _⟩ => ⟨S1x2x1024x64, .f32⟩
  | .local _ .vmem, ⟨2, _⟩ => ⟨S1x2x2048x64, .bf16⟩
  | .local _ .vmem, ⟨3, _⟩ => ⟨S1x2x2048x64, .bf16⟩
  | .local _ .vmem, ⟨4, _⟩ => ⟨S1x2x2048x64, .bf16⟩
  | .local _ .vmem, ⟨5, _⟩ => ⟨S1x2x2048x64, .bf16⟩
  | .local _ .vmem, ⟨6, _⟩ => ⟨S1x1024x128, .f32⟩
  | .local _ .vmem, ⟨7, _⟩ => ⟨S1x1024x128, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  bitsLt_bf16_f32 : FTy.bits .bf16 < FTy.bits .f32
  inb_S1x2x1024x64_S1x1x1024x64_0_0_0_0 : ∀ a, (![0, 0, 0, 0] : Fin 4 → Nat) a + S1x1x1024x64.size a ≤ S1x2x1024x64.size a
  h_S1x1x1024x64 : 0 < S1x1x1024x64.numel
  shapeCasts_S1x1x1024x64_S1024x64 : S1x1x1024x64.ShapeCasts S1024x64
  inb_S1x2x2048x64_S1x1x2048x64_0_0_0_0 : ∀ a, (![0, 0, 0, 0] : Fin 4 → Nat) a + S1x1x2048x64.size a ≤ S1x2x2048x64.size a
  h_S1x1x2048x64 : 0 < S1x1x2048x64.numel
  shapeCasts_S1x1x2048x64_S2048x64 : S1x1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  inb_S1x2x1024x64_S1x1x1024x64_0_1_0_0 : ∀ a, (![0, 1, 0, 0] : Fin 4 → Nat) a + S1x1x1024x64.size a ≤ S1x2x1024x64.size a
  inb_S1x2x2048x64_S1x1x2048x64_0_1_0_0 : ∀ a, (![0, 1, 0, 0] : Fin 4 → Nat) a + S1x1x2048x64.size a ≤ S1x2x2048x64.size a
  concatenates_S1024x64_S1024x64_S1024x128_d1 : Shape.Concatenates [S1024x64, S1024x64] S1024x128 1
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  shapeCasts_S2x2048x1024_S2x2048x16x64 : S2x2048x1024.ShapeCasts S2x2048x16x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x1024x64.size a ≤ S2x16x2048x64.size a
  hwx0_0 : ∀ i : grid0.Coords, EltTy.bits .f32 = 32 ∨ (Rect.block (s := S2x16x2048x64) S1x2x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x2048x64.size a ≤ S2x16x2048x64.size a
  hwx0_1 : ∀ i : grid0.Coords, EltTy.bits .bf16 = 32 ∨ (Rect.block (s := S2x16x2048x64) S1x2x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x2048x64.size a ≤ S2x16x2048x64.size a
  hwx0_2 : ∀ i : grid0.Coords, EltTy.bits .bf16 = 32 ∨ (Rect.block (s := S2x16x2048x64) S1x2x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S2x2048x1024.size a
  hwx0_3 : ∀ i : grid0.Coords, EltTy.bits .f32 = 32 ∨ (Rect.block (s := S2x2048x1024) S1x1024x128.size (cc0_transform_3 i) (hinb0_3 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x2x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S2x16x64x2048 : Shape := ⟨4, ![2, 16, 64, 2048]⟩
abbrev S2x2048x16x64 : Shape := ⟨4, ![2, 2048, 16, 64]⟩

abbrev nBuf : Space → Nat
  | .hbm => 23
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .f32⟩
  | .hbm, ⟨4, _⟩ => ⟨S_, .f32⟩
  | .hbm, ⟨5, _⟩ => ⟨S2x16x2048x2048, .f32⟩
  | .hbm, ⟨6, _⟩ => ⟨S2x16x2048x2048, .f32⟩
  | .hbm, ⟨7, _⟩ => ⟨S_, .f32⟩
  | .hbm, ⟨8, _⟩ => ⟨S2x16x2048, .f32⟩
  | .hbm, ⟨9, _⟩ => ⟨S_, .f32⟩
  | .hbm, ⟨10, _⟩ => ⟨S2x16x2048, .f32⟩
  | .hbm, ⟨11, _⟩ => ⟨S2x16x2048, .f32⟩
  | .hbm, ⟨12, _⟩ => ⟨S2x16x2048x1, .f32⟩
  | .hbm, ⟨13, _⟩ => ⟨S2x16x2048x2048, .f32⟩
  | .hbm, ⟨14, _⟩ => ⟨S2x16x2048x2048, .f32⟩
  | .hbm, ⟨15, _⟩ => ⟨S2x16x2048x2048, .f32⟩
  | .hbm, ⟨16, _⟩ => ⟨S_, .f32⟩
  | .hbm, ⟨17, _⟩ => ⟨S2x16x2048, .f32⟩
  | .hbm, ⟨18, _⟩ => ⟨S2x16x2048x1, .f32⟩
  | .hbm, ⟨19, _⟩ => ⟨S2x16x2048x2048, .f32⟩
  | .hbm, ⟨20, _⟩ => ⟨S2x16x2048x2048, .f32⟩
  | .hbm, ⟨21, _⟩ => ⟨S2x16x64x2048, .f32⟩
  | .hbm, ⟨22, _⟩ => ⟨S2x2048x16x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x64x2048_S2x2048x16x64_0_3_1_2 : S2x16x64x2048.Transposes [0, 3, 1, 2] S2x2048x16x64
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x64_S2x16x2048x2048_S2x16x64x2048_2_3_3_2_01_01_wf : DotDims.WF S2x16x2048x64 S2x16x2048x2048 S2x16x64x2048 [2] [3] [3] [2] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x64_S2x16x2048x2048_S2x16x64x2048_2_3_3_2_01_01 : DotDims S2x16x2048x64 S2x16x2048x2048 S2x16x64x2048 where
  lhsContracting := [2]
  rhsContracting := [3]
  lhsNonContracting := [3]
  rhsNonContracting := [2]
  lhsBatch := [0, 1]
  rhsBatch := [0, 1]
  wf := dot_S2x16x2048x64_S2x16x2048x2048_S2x16x64x2048_2_3_3_2_01_01_wf

class Facts : Prop extends Facts₀ where

variable [Facts]
-- ==== Proof.Spec.lean ====
/-
  Scaled dot-product attention for one query row, written twice over the extended reals.

  For a query row `q` (64 numbers), the key rows `k j` (2048 rows of 64) and one value column `v j`:
  the scores are `s j = (Σ_d q d · k j d) / 8`, their maximum `m`, the weights `e j = exp (s j − m)`,
  and the result `Σ_j e j · v j / Σ_j e j`.
  * `rowScaleFirst` multiplies the query by one eighth BEFORE the score sum, and divides by the
    weights' total AFTER the weighted sum of the values.
  * `rowDivideLast` divides the score sum by eight, bounds the maximum below by −∞ once more, starts
    the total from zero, and normalises each weight BEFORE the weighted sum.
  On finite inputs the two agree (Proof/Algebra.lean).  `outScaleFirst` / `outDivideLast` lay the
  rows out as the [batch, query position, head, feature] array.
-/
import Idealize.ShloMosaic.PureOps.Ideal
import Idealize.ShloMosaic.Lib.ValueIdx

noncomputable section

namespace Cert.Attention

open Idealize.ShloMosaic Idealize.ShloMosaic.ValueIdx

/-- Queries, keys and values: [batch, head, position, feature]. -/
abbrev SQ : Shape := ⟨4, ![2, 16, 2048, 64]⟩
/-- The result: [batch, query position, head, feature]. -/
abbrev SO : Shape := ⟨4, ![2, 2048, 16, 64]⟩

/-- The score of key row `j`, the query scaled by the word for one eighth first. -/
def scoreScaleFirst (q : Fin 64 → EReal) (k : Fin 2048 → Fin 64 → EReal) (j : Fin 2048) : EReal :=
  ∑ d : Fin 64, (q d * Ideal.ofBits .f32 0x3E000000#32) * k j d

/-- The score of key row `j`, the sum divided by the word for eight. -/
def scoreDivideLast (q : Fin 64 → EReal) (k : Fin 2048 → Fin 64 → EReal) (j : Fin 2048) : EReal :=
  Ideal.div (∑ d : Fin 64, q d * k j d) (Ideal.ofBits .f32 0x41000000#32)

/-- The largest of 2048 scores, from −∞. -/
def rowMax (s : Fin 2048 → EReal) : EReal :=
  (Finset.univ : Finset (Fin 2048)).fold max (Ideal.ofBits .f32 0xFF800000#32) s

/-- One output entry, the scale first and the normalisation last. -/
def rowScaleFirst (q : Fin 64 → EReal) (k : Fin 2048 → Fin 64 → EReal) (v : Fin 2048 → EReal) : EReal :=
  Ideal.div (∑ j : Fin 2048, Ideal.exp (scoreScaleFirst q k j - rowMax (scoreScaleFirst q k)) * v j)
    (∑ j : Fin 2048, Ideal.exp (scoreScaleFirst q k j - rowMax (scoreScaleFirst q k)))

/-- One output entry, the division last in the scores and the normalisation before the value sum. -/
def rowDivideLast (q : Fin 64 → EReal) (k : Fin 2048 → Fin 64 → EReal) (v : Fin 2048 → EReal) : EReal :=
  ∑ j : Fin 2048, v j *
    Ideal.div (Ideal.exp (scoreDivideLast q k j - max (Ideal.ofBits .f32 0xFF800000#32) (rowMax (scoreDivideLast q k))))
      (Ideal.ofBits .f32 0x00000000#32
        + ∑ j' : Fin 2048, Ideal.exp (scoreDivideLast q k j' - max (Ideal.ofBits .f32 0xFF800000#32) (rowMax (scoreDivideLast q k))))

/-- The whole result, entry (b, s, h, f) from query row (b, h, s), the keys of (b, h) and value column f of (b, h). -/
def outScaleFirst (q k v : SQ.Idx → EReal) : SO.Idx → EReal := fun i =>
  rowScaleFirst (fun d => q (ix4 (i 0) (i 2) (i 1) d)) (fun j d => k (ix4 (i 0) (i 2) j d)) (fun j => v (ix4 (i 0) (i 2) j (i 3)))

/-- The same entries by the other arrangement. -/
def outDivideLast (q k v : SQ.Idx → EReal) : SO.Idx → EReal := fun i =>
  rowDivideLast (fun d => q (ix4 (i 0) (i 2) (i 1) d)) (fun j d => k (ix4 (i 0) (i 2) j d)) (fun j => v (ix4 (i 0) (i 2) j (i 3)))

end Cert.Attention

end
-- ==== Proof.Algebra.lean ====
/-
  The two arrangements of scaled dot-product attention for one query row agree on finite inputs.

  With real inputs every score is a real number, the two score formulas give the same real,
  the running maximum over the 2048 scores is a real, every weight is the real exponential of a
  real, and the total of the weights is a positive real.  Division by a non-zero real is
  multiplication by its reciprocal, so both sides become coercions of real sums, where the
  identity is distributivity.
-/
import proofs.«424252_j15444702396493_3_alg».proof.Proof.Spec
import Idealize.ShloMosaic.PureOps.Ideal
import Idealize.ShloMosaic.PureOps.Ideal.Laws
import Mathlib.Data.EReal.Basic
import Mathlib.Data.EReal.Operations
import Mathlib.Data.EReal.Inv
import Mathlib.Data.Finset.Fold

noncomputable section

namespace Cert.Attention

open Idealize.ShloMosaic Idealize.ShloMosaic.ValueIdx

/-! ### The four words -/

/-- The word for one eighth denotes the real `1/8`. -/
theorem ofBits_eighth : Ideal.ofBits .f32 0x3E000000#32 = ((1 / 8 : ℝ) : EReal) := by
  simp [Ideal.ofBits, Ideal.ieee, -EReal.coe_mul]; norm_num

/-- The word for eight denotes the real `8`. -/
theorem ofBits_eight : Ideal.ofBits .f32 0x41000000#32 = ((8 : ℝ) : EReal) := by
  simp [Ideal.ofBits, Ideal.ieee, -EReal.coe_mul]; norm_num

/-- The word for −∞ denotes `⊥`. -/
theorem ofBits_negInf : Ideal.ofBits .f32 0xFF800000#32 = (⊥ : EReal) := by
  simp [Ideal.ofBits, Ideal.ieee]

/-- The word for +0 denotes `0`. -/
theorem ofBits_zero : Ideal.ofBits .f32 0x00000000#32 = (0 : EReal) :=
  Ideal.ofBits_zero_f32

/-! ### Sums of reals inside the extended reals -/

/-- A finite sum of real numbers, taken in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-! ### The scores -/

/-- The real score of key row `j`: the dot product of the query with the key row, times one eighth. -/
def scoreReal (qr : Fin 64 → ℝ) (kr : Fin 2048 → Fin 64 → ℝ) (j : Fin 2048) : ℝ :=
  (∑ d : Fin 64, qr d * kr j d) * (1 / 8)

/-- Scaling the query first gives the real score: `Σ_d (q_d · ⅛) · k_jd = (Σ_d q_d · k_jd) · ⅛`. -/
theorem scoreScaleFirst_coe (qr : Fin 64 → ℝ) (kr : Fin 2048 → Fin 64 → ℝ) (j : Fin 2048) :
    scoreScaleFirst (fun d => (qr d : EReal)) (fun j d => (kr j d : EReal)) j
      = (scoreReal qr kr j : EReal) := by
  unfold scoreScaleFirst scoreReal
  rw [ofBits_eighth]
  simp only [← EReal.coe_mul]
  rw [coe_sum, Finset.sum_mul]
  exact congrArg _ (Finset.sum_congr rfl (fun d _ => by ring))

/-- Dividing the sum by eight gives the real score: `x / 8 = x · ⅛`. -/
theorem scoreDivideLast_coe (qr : Fin 64 → ℝ) (kr : Fin 2048 → Fin 64 → ℝ) (j : Fin 2048) :
    scoreDivideLast (fun d => (qr d : EReal)) (fun j d => (kr j d : EReal)) j
      = (scoreReal qr kr j : EReal) := by
  unfold scoreDivideLast scoreReal
  rw [ofBits_eight, Ideal.div_coe (by norm_num : (8 : ℝ) ≠ 0)]
  simp only [← EReal.coe_mul]
  rw [coe_sum, ← EReal.coe_mul]

/-! ### The maximum -/

/-- The largest of 2048 real scores, started from −∞, is a real number: it is below `⊤` because
    every score is, and above `⊥` because the score of row `0` is. -/
theorem rowMax_coe (s : Fin 2048 → ℝ) : ∃ M : ℝ, rowMax (fun j => (s j : EReal)) = (M : EReal) := by
  unfold rowMax
  rw [ofBits_negInf]
  have hlt : (Finset.univ : Finset (Fin 2048)).fold max (⊥ : EReal) (fun j => (s j : EReal)) < ⊤ :=
    (Finset.fold_max_lt _).mpr ⟨bot_lt_top, fun j _ => EReal.coe_lt_top _⟩
  have hgt : (⊥ : EReal) < (Finset.univ : Finset (Fin 2048)).fold max (⊥ : EReal) (fun j => (s j : EReal)) :=
    (Finset.lt_fold_max _).mpr (Or.inr ⟨0, Finset.mem_univ _, EReal.bot_lt_coe _⟩)
  exact ⟨_, (EReal.coe_toReal hlt.ne hgt.ne').symm⟩

/-! ### Normalising after or before the weighted sum -/

/-- With real scores `s`, a real maximum `M` and real values `v`, put `e_j = exp (s_j − M)` and
    `L = Σ_j e_j > 0`.  Then `(Σ_j e_j · v_j) / L = Σ_j v_j · (e_j / L)`; bounding `M` below by −∞ and
    starting the total from zero change nothing. -/
theorem normalise_eq {ι : Type*} [Fintype ι] [Nonempty ι] (s : ι → ℝ) (M : ℝ) (vr : ι → ℝ) :
    Ideal.div (∑ j, Ideal.exp ((s j : EReal) - (M : EReal)) * (vr j : EReal))
        (∑ j, Ideal.exp ((s j : EReal) - (M : EReal)))
      = ∑ j, (vr j : EReal) *
          Ideal.div (Ideal.exp ((s j : EReal) - max (⊥ : EReal) (M : EReal)))
            ((0 : EReal) + ∑ j', Ideal.exp ((s j' : EReal) - max (⊥ : EReal) (M : EReal))) := by
  have hL : (∑ j, Real.exp (s j - M)) ≠ 0 :=
    (Finset.sum_pos (fun j _ => Real.exp_pos _) Finset.univ_nonempty).ne'
  simp only [max_bot_left, zero_add, ← EReal.coe_sub, Ideal.exp_coe, ← EReal.coe_mul, coe_sum,
    Ideal.div_coe hL]
  rw [Finset.sum_mul]
  exact congrArg _ (Finset.sum_congr rfl (fun j _ => by ring))

/-! ### The two arrangements agree -/

/-- One output entry: on real inputs both arrangements are the real number
    `(Σ_j exp (s_j − M) · v_j) / Σ_j exp (s_j − M)` with `s_j = (Σ_d q_d · k_jd) / 8` and `M = max_j s_j`. -/
theorem rowScaleFirst_eq_rowDivideLast (q : Fin 64 → EReal) (k : Fin 2048 → Fin 64 → EReal) (v : Fin 2048 → EReal)
    (hq : ∀ d, ∃ r : ℝ, q d = (r : EReal)) (hk : ∀ j d, ∃ r : ℝ, k j d = (r : EReal)) (hv : ∀ j, ∃ r : ℝ, v j = (r : EReal)) :
    rowScaleFirst q k v = rowDivideLast q k v := by
  choose qr hqr using hq
  choose kr hkr using hk
  choose vr hvr using hv
  obtain rfl : q = fun d => (qr d : EReal) := funext hqr
  obtain rfl : k = fun j d => (kr j d : EReal) := funext fun j => funext (hkr j)
  obtain rfl : v = fun j => (vr j : EReal) := funext hvr
  have h1 : scoreScaleFirst (fun d => (qr d : EReal)) (fun j d => (kr j d : EReal))
      = fun j => (scoreReal qr kr j : EReal) := funext (scoreScaleFirst_coe qr kr)
  have h2 : scoreDivideLast (fun d => (qr d : EReal)) (fun j d => (kr j d : EReal))
      = fun j => (scoreReal qr kr j : EReal) := funext (scoreDivideLast_coe qr kr)
  obtain ⟨M, hM⟩ := rowMax_coe (scoreReal qr kr)
  unfold rowScaleFirst rowDivideLast
  rw [h1, h2, hM, ofBits_negInf, ofBits_zero]
  exact normalise_eq (scoreReal qr kr) M vr

/-- The whole result: entry by entry, each entry is one query row against the keys and one value
    column of its batch and head. -/
theorem outScaleFirst_eq_outDivideLast (q k v : SQ.Idx → EReal)
    (hq : ∀ x, ∃ r : ℝ, q x = (r : EReal)) (hk : ∀ x, ∃ r : ℝ, k x = (r : EReal)) (hv : ∀ x, ∃ r : ℝ, v x = (r : EReal)) :
    outScaleFirst q k v = outDivideLast q k v := by
  funext i
  unfold outScaleFirst outDivideLast
  exact rowScaleFirst_eq_rowDivideLast _ _ _ (fun _ => hq _) (fun _ _ => hk _) (fun _ => hv _)

end Cert.Attention

end
-- ==== Proof.Finite.lean ====
/-
  Finite inputs are real numbers.

  The precondition says of each of the three input arrays that every entry's absolute value is
  strictly below +∞, all entries taken together by "and", and the three statements taken together
  by "and" once more.  Over the extended reals an entry `x` with `max x (-x) < ⊤` is neither `⊤`
  nor `⊥` (for both of them `max x (-x) = ⊤`), hence the image of a real number.  So under the
  precondition every entry of every input is a real.
-/
import proofs.«424252_j15444702396493_3_alg».proof.Pre_finite_inputs
import Idealize.ShloMosaic.PureOps.Ideal
import Idealize.ShloMosaic.Lib.ReduceAll
import Idealize.ShloMosaic.Lib.ValueIdx

noncomputable section

namespace Cert.Attention

open Idealize.ShloMosaic

/-- The f32 word `0x7F800000` (sign 0, exponent all ones, fraction 0) denotes `+∞`. -/
theorem ofBits_posInf : Ideal.ofBits .f32 0x7F800000#32 = (⊤ : EReal) := by
  simp [Ideal.ofBits, Ideal.ieee]

/-- An extended real whose absolute value `max x (-x)` is below `+∞` is a real number:
    at `⊥` and at `⊤` the maximum is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The ordered comparison "less than" that came out 1 compared `u < v`. -/
theorem lt_of_cmp_olt (u v : EReal) (h : Ideal.cmp .olt u v = 1#1) : u < v := by
  unfold Ideal.cmp at h
  by_contra hn
  simp [hn] at h

/-- The rank-0 shape has one index. -/
instance : Subsingleton Cert.Pre_finite_inputs.S_.Idx := ⟨fun a b => funext fun d => d.elim0⟩

open Cert.Pre_finite_inputs in
/-- One conjunct of the precondition read back: if "and" over all entries of `|a| < +∞` is 1,
    every entry of `a` is a real.  The reduction over all four axes being 1 makes the comparison 1
    at each index `x`; there the broadcast constant is `⊤` and `|a x|` is `max (a x) (-(a x))`. -/
theorem real_of_all_lt_inf [Cert.Pre_finite_inputs.Facts] (a : FVec Ideal S2x16x2048x64 .f32)
    (h : Host.reduce IntOp.andi
        (cmpf .olt (Host.absf a)
          (broadcastInDim S2x16x2048x64 ![] Facts.bcast_S_S2x16x2048x64 (constant (F := Ideal) S_ .f32 0x7F800000#32)))
        (constantI S_ 1 1#1) Facts.reducesTo_S2x16x2048x64_S_d0_1_2_3 Facts.h_S_ ValueIdx.ix0 = 1#1)
    (x : S2x16x2048x64.Idx) : ∃ r : ℝ, a x = (r : EReal) := by
  have e := Host.reduce_andi_all _ _ _ _ _ h x
  refine real_of_abs_lt_top (a x) ?_
  have hc : broadcastInDim S2x16x2048x64 ![] Facts.bcast_S_S2x16x2048x64 (constant (F := Ideal) S_ .f32 0x7F800000#32) x
      = (⊤ : EReal) := ofBits_posInf
  unfold cmpf at e
  rw [hc] at e
  exact lt_of_cmp_olt _ _ e

open Idealize.ShloMosaic in
/-- Under the precondition every entry of each of the three inputs is a real number. -/
theorem real_of_finite_inputs [Cert.Pre_finite_inputs.Facts]
    (a b c : FVec Ideal Cert.Pre_finite_inputs.S2x16x2048x64 .f32)
    (h : Cert.Pre_finite_inputs.fn (F := Ideal) a b c = (fun _ => 1#1)) :
    (∀ x, ∃ r : ℝ, a x = (r : EReal)) ∧ (∀ x, ∃ r : ℝ, b x = (r : EReal)) ∧ (∀ x, ∃ r : ℝ, c x = (r : EReal)) := by
  have h0 := congrFun h ValueIdx.ix0
  unfold Cert.Pre_finite_inputs.fn at h0
  dsimp only at h0
  obtain ⟨h12, h3⟩ := IntOp.andi_eq_one.1 h0
  obtain ⟨h1, h2⟩ := IntOp.andi_eq_one.1 h12
  exact ⟨real_of_all_lt_inf a h1, real_of_all_lt_inf b h2, real_of_all_lt_inf c h3⟩

end Cert.Attention

end
-- ==== Proof.RefValue.lean ====
/-
  The reference program's result, entry by entry, is `outDivideLast` of its three arguments.

  Its stages in order: the scores (a contraction over the 64 features, divided by eight), their row
  maximum (from −∞, then bounded below by −∞ once more), the exponentials of the differences, their row
  total (from zero), the normalised weights, the contraction of the values with the weights over the
  2048 key positions, and a transposition that puts the query position second.  Each stage is read at
  an index with explicit coordinates; only the row maximum needs more than the stage's own reading:
  it is a fold of `max` over the key positions.
-/
import proofs.«424252_j15444702396493_3_alg».proof.Proof.Gen.ReferenceIdeal.Read
import proofs.«424252_j15444702396493_3_alg».proof.Proof.Spec
import Idealize.ShloMosaic.PureOps.Reduce
import Idealize.ShloMosaic.PureOps.Ideal.Laws
import Idealize.ShloMosaic.Lib.ValueIdx

noncomputable section

namespace Cert.Attention.Ref

open Cert.ReferenceIdeal Cert.ReferenceIdeal.Gen Cert.ReferenceIdeal.Read Cert.Attention
open Idealize.ShloMosaic Idealize.ShloMosaic.ValueIdx

/-- An argument array of the reference. -/
abbrev Arr : Type := (⟨S2x16x2048x64, .f32⟩ : BufTy).Contents (Elt Ideal)

variable (x0 x1 : Arr)

/-- Query row (b, h, s). -/
abbrev qrow (b : Fin 2) (h : Fin 16) (s : Fin 2048) : Fin 64 → EReal := fun d => x0 (ix4 b h s d)
/-- The keys of (b, h). -/
abbrev kmat (b : Fin 2) (h : Fin 16) : Fin 2048 → Fin 64 → EReal := fun j d => x1 (ix4 b h j d)

/-- The score stage at (b, h, s, j). -/
theorem score_at (b : Fin 2) (h : Fin 16) (s j : Fin 2048) :
    val_main_v2 (F := Ideal) x0 x1 (ix4 b h s j) = scoreDivideLast (qrow x0 b h s) (kmat x1 b h) j := by
  rw [val_main_v2_apply, val_main_v0_apply, val_main_v1_apply, val_main_cst_apply]
  unfold scoreDivideLast
  have el : ∀ d : Fin 64, lidx_main_v0 (ix4 b h s j) d = ix4 b h s d := fun d => by
    funext a; apply Fin.ext; match a with | ⟨0, _⟩ => rfl | ⟨1, _⟩ => rfl | ⟨2, _⟩ => rfl | ⟨3, _⟩ => rfl
  have er : ∀ d : Fin 64, ridx_main_v0 (ix4 b h s j) d = ix4 b h j d := fun d => by
    funext a; apply Fin.ext; match a with | ⟨0, _⟩ => rfl | ⟨1, _⟩ => rfl | ⟨2, _⟩ => rfl | ⟨3, _⟩ => rfl
  simp only [el, er]
  rfl

/-- The reduced index (b, h, s) with key position `k` put back is (b, h, s, k). -/
theorem lift_at (hr : S2x16x2048x2048.Reduces [3] S2x16x2048) (b : Fin 2) (h : Fin 16) (s : Fin 2048)
    (k : Fin (S2x16x2048x2048.size 3)) : hr.lift (ix3 b h s) k = ix4 b h s (⟨k.val, k.isLt⟩ : Fin 2048) := by
  funext c; apply Fin.ext
  fin_cases c <;> rfl

/-- The row maximum stage at (b, h, s): the fold of `max` from −∞ over the row's scores. -/
theorem max_at (b : Fin 2) (h : Fin 16) (s : Fin 2048) :
    val_main_v3 (F := Ideal) x0 x1 (ix3 b h s) = rowMax (scoreDivideLast (qrow x0 b h s) (kmat x1 b h)) := by
  unfold val_main_v3
  have hr : S2x16x2048x2048.Reduces [3] S2x16x2048 := by decide
  rw [Host.reduce_eq_fold_single FloatOps.maximumf _ _ reducesTo_S2x16x2048x2048_S2x16x2048_d3 hr h_S_]
  unfold rowMax
  have hf : (val_main_v2 (F := Ideal) x0 x1 ∘ hr.lift (ix3 b h s))
      = fun k : Fin 2048 => scoreDivideLast (qrow x0 b h s) (kmat x1 b h) k := funext fun k => by
    show val_main_v2 (F := Ideal) x0 x1 (hr.lift (ix3 b h s) k) = _
    rw [lift_at hr b h s k]
    exact score_at x0 x1 b h s _
  rw [hf]
  rfl

/-- The bounded maximum stage at (b, h, s). -/
theorem bmax_at (b : Fin 2) (h : Fin 16) (s : Fin 2048) :
    val_main_v5 (F := Ideal) x0 x1 (ix3 b h s)
      = max (Ideal.ofBits .f32 0xFF800000#32) (rowMax (scoreDivideLast (qrow x0 b h s) (kmat x1 b h))) := by
  rw [val_main_v5_apply, val_main_v4_apply, val_main_cst_1_apply, max_at]
  rfl

/-- The weight stage at (b, h, s, j). -/
theorem exp_at (b : Fin 2) (h : Fin 16) (s j : Fin 2048) :
    val_main_v9 (F := Ideal) x0 x1 (ix4 b h s j)
      = Ideal.exp (scoreDivideLast (qrow x0 b h s) (kmat x1 b h) j
          - max (Ideal.ofBits .f32 0xFF800000#32) (rowMax (scoreDivideLast (qrow x0 b h s) (kmat x1 b h)))) := by
  rw [val_main_v9_apply, val_main_v8_apply, val_main_v7_apply, val_main_v6_apply, score_at]
  have e : idx_main_v6 (idx_main_v7 (ix4 b h s j)) = ix3 b h s := by
    funext a; apply Fin.ext; match a with | ⟨0, _⟩ => rfl | ⟨1, _⟩ => rfl | ⟨2, _⟩ => rfl
  rw [e, bmax_at]
  rfl

/-- The row total stage at (b, h, s). -/
theorem total_at (b : Fin 2) (h : Fin 16) (s : Fin 2048) :
    val_main_v10 (F := Ideal) x0 x1 (ix3 b h s)
      = Ideal.ofBits .f32 0x00000000#32
        + ∑ j : Fin 2048, Ideal.exp (scoreDivideLast (qrow x0 b h s) (kmat x1 b h) j
          - max (Ideal.ofBits .f32 0xFF800000#32) (rowMax (scoreDivideLast (qrow x0 b h s) (kmat x1 b h)))) := by
  rw [val_main_v10_apply, val_main_cst_2_apply]
  refine congrArg (_ + ·) (Finset.sum_congr rfl fun j _ => ?_)
  have e : idx_main_v10 (ix3 b h s) j = ix4 b h s j := by
    funext a; apply Fin.ext; match a with | ⟨0, _⟩ => rfl | ⟨1, _⟩ => rfl | ⟨2, _⟩ => rfl | ⟨3, _⟩ => rfl
  rw [e, exp_at]

/-- The normalised weight stage at (b, h, s, j). -/
theorem weight_at (b : Fin 2) (h : Fin 16) (s j : Fin 2048) :
    val_main_v13 (F := Ideal) x0 x1 (ix4 b h s j)
      = Ideal.div (Ideal.exp (scoreDivideLast (qrow x0 b h s) (kmat x1 b h) j
          - max (Ideal.ofBits .f32 0xFF800000#32) (rowMax (scoreDivideLast (qrow x0 b h s) (kmat x1 b h)))))
        (Ideal.ofBits .f32 0x00000000#32
          + ∑ j' : Fin 2048, Ideal.exp (scoreDivideLast (qrow x0 b h s) (kmat x1 b h) j'
            - max (Ideal.ofBits .f32 0xFF800000#32) (rowMax (scoreDivideLast (qrow x0 b h s) (kmat x1 b h))))) := by
  rw [val_main_v13_apply, val_main_v12_apply, val_main_v11_apply, exp_at]
  have e : idx_main_v11 (idx_main_v12 (ix4 b h s j)) = ix3 b h s := by
    funext a; apply Fin.ext; match a with | ⟨0, _⟩ => rfl | ⟨1, _⟩ => rfl | ⟨2, _⟩ => rfl
  rw [e, total_at]
  rfl

/-- The reference's result array is `outDivideLast` of its arguments. -/
theorem result_eq (x2 : Arr) : val_main_v15 (F := Ideal) x0 x1 x2 = outDivideLast x0 x1 x2 := by
  funext i
  obtain ⟨b, s, h, f, rfl⟩ : ∃ (b : Fin 2) (s : Fin 2048) (h : Fin 16) (f : Fin 64), i = ix4 b s h f :=
    ⟨i 0, i 1, i 2, i 3, eq_ix4 i⟩
  rw [val_main_v15_apply, val_main_v14_apply]
  unfold outDivideLast rowDivideLast
  refine Finset.sum_congr rfl fun j _ => ?_
  have el : lidx_main_v14 (idx_main_v15 (ix4 b s h f)) j = ix4 b h j f := by
    funext a; apply Fin.ext; match a with | ⟨0, _⟩ => rfl | ⟨1, _⟩ => rfl | ⟨2, _⟩ => rfl | ⟨3, _⟩ => rfl
  have er : ridx_main_v14 (idx_main_v15 (ix4 b s h f)) j = ix4 b h s j := by
    funext a; apply Fin.ext; match a with | ⟨0, _⟩ => rfl | ⟨1, _⟩ => rfl | ⟨2, _⟩ => rfl | ⟨3, _⟩ => rfl
  rw [el, er, weight_at]

end Cert.Attention.Ref

end
-- ==== Proof.LibColumnLayout.lean ====
/-
  Layout operations on small ranks read at an index given by coordinates: the forms that keep a reduced
  axis as a unit column (a row reduction whose result is broadcast back along the rows), and two unit
  axes dropped at once.

  * `shapeCast_11ab_ab_apply`: a `[1, 1, a, b]` array cast to `[a, b]` reads, at `(i, j)`, the operand at `(0, 0, i, j)`.
  * `shapeCast_a_a1_apply`: an `[a]` vector cast to the column `[a, 1]` reads, at `(i, u)`, the operand at `i`.
  * `broadcastTo_a1_ab_apply`: a column `[a, 1]` broadcast to `[a, b]` reads, at `(p, c)`, the column at `(p, 0)`.
  * `reduces_lift_ix1`: for a reduction of `[a, b]` over its second axis, the reduced index `p` with the
    coordinate `k` put back is `(p, k)`.
-/
import Idealize.ShloMosaic.Lib.Pipeline.Value
import Idealize.ShloMosaic.Lib.ValueIdx
import Idealize.ShloMosaic.PureOps.Reduce

namespace Cert.ColumnLayout

open Idealize.ShloMosaic Idealize.ShloMosaic.ValueIdx

variable {α : Type}

/-- A `[1, 1, a, b]` array cast to `[a, b]` reads, at `(i, j)`, the operand at `(0, 0, i, j)`: both positions
    are `i · b + j` in row-major order. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a]` vector cast to the column `[a, 1]` reads, at `(i, u)`, the operand at `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (ha : a ≠ 1) (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ =>
    show 0 = if (1 : ℕ) = 1 then 0 else c.val
    rw [if_pos rfl]

/-- Reducing `[a, b]` over its second axis: the reduced index `p` with `k` put back on that axis is `(p, k)`. -/
theorem reduces_lift_ix1 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

end Cert.ColumnLayout
-- ==== Proof.PayloadValue.lean ====
/-
  What the kernel body computes for one head, entry by entry, at the ideal values.

  The body handles two heads per grid point.  For each head it scales the query block by one eighth,
  contracts it with the key block over the 64 features (the scores, 1024 query rows by 2048 key rows),
  takes each row's maximum, exponentiates the differences, sums each row, contracts the weights with the
  value block over the 2048 key rows and divides each row by its total.  The two heads' results are laid
  side by side along the lanes (64 + 64) and stored as one [1, 1024, 128] block.

  `core_apply` reads one head's result at (r, f) as `rowScaleFirst` of query row r, the head's keys and
  value column f; `store_apply` reads the stored block at (0, r, c): lanes below 64 are the first head's
  feature c, the others the second head's feature c − 64.
-/
import proofs.«424252_j15444702396493_3_alg».proof.Proof.Gen.KernelIdeal.Skeleton
import proofs.«424252_j15444702396493_3_alg».proof.Proof.Spec
import proofs.«424252_j15444702396493_3_alg».proof.Proof.LibColumnLayout
import Idealize.ShloMosaic.Lib.ValueLayout
import Idealize.ShloMosaic.Lib.Pipeline.Value
import Idealize.ShloMosaic.PureOps.Ideal.Laws

noncomputable section

namespace Cert.Attention.Payload

open Cert.KernelIdeal Cert.KernelIdeal.Gen Cert.Attention Cert.ColumnLayout
open Idealize.ShloMosaic Idealize.ShloMosaic.ValueIdx

/-! ## The two contractions read at an index -/

/-- Scores: query rows against key rows, the features contracted. -/
abbrev dQK : DotDims S1024x64 S2048x64 S1024x2048 := dot_S1024x64_S2048x64_S1024x2048_1_1_0_0_n_n
/-- Weighted values: the key positions contracted. -/
abbrev dPV : DotDims S1024x2048 S2048x64 S1024x64 := dot_S1024x2048_S2048x64_S1024x64_1_0_0_1_n_n

theorem qk_lhs_0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem qk_lhs_1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
theorem qk_rhs_0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem qk_rhs_1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

/-- The scores at (r, j): the sum over the features of query row r times key row j. -/
theorem scores_apply (a : FVec Ideal S1024x64 .bf16) (b : FVec Ideal S2048x64 .bf16) (r : Fin 1024) (j : Fin 2048) :
    matmul dot_S1024x64_S2048x64_S1024x2048_1_1_0_0_n_n none a b (constant S1024x2048 .f32 0x00000000#32) (ix2 r j)
      = ∑ d : Fin 64, a (ix2 r d) * b (ix2 j d) := by
  simp only [matmul]
  rw [Ideal.matmul_constant_zero_apply, ← Equiv.sum_comp (ValueIdx.contrEquiv1 dot_S1024x64_S2048x64_S1024x2048_1_1_0_0_n_n 64 rfl rfl).symm]
  refine Finset.sum_congr rfl fun k _ => ?_
  have hk := ValueIdx.contrEquiv1_symm_val dot_S1024x64_S2048x64_S1024x2048_1_1_0_0_n_n 64 rfl rfl k
  have el : dot_S1024x64_S2048x64_S1024x2048_1_1_0_0_n_n.lhsIdx (ix2 r j) ((ValueIdx.contrEquiv1 dot_S1024x64_S2048x64_S1024x2048_1_1_0_0_n_n 64 rfl rfl).symm k) = ix2 r k := funext fun a => Fin.ext (by
    match a with
    | ⟨0, _⟩ => exact qk_lhs_0 _ _
    | ⟨1, _⟩ => exact (qk_lhs_1 _ _).trans hk)
  have er : dot_S1024x64_S2048x64_S1024x2048_1_1_0_0_n_n.rhsIdx (ix2 r j) ((ValueIdx.contrEquiv1 dot_S1024x64_S2048x64_S1024x2048_1_1_0_0_n_n 64 rfl rfl).symm k) = ix2 j k := funext fun a => Fin.ext (by
    match a with
    | ⟨0, _⟩ => exact qk_rhs_0 _ _
    | ⟨1, _⟩ => exact (qk_rhs_1 _ _).trans hk)
  rw [el, er]

theorem pv_lhs_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem pv_lhs_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem pv_rhs_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem pv_rhs_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- The weighted values at (r, f): the sum over the key positions of weight (r, j) times value (j, f). -/
theorem wv_apply (p : FVec Ideal S1024x2048 .bf16) (b : FVec Ideal S2048x64 .bf16) (r : Fin 1024) (f : Fin 64) :
    matmul dot_S1024x2048_S2048x64_S1024x64_1_0_0_1_n_n none p b (constant S1024x64 .f32 0x00000000#32) (ix2 r f)
      = ∑ j : Fin 2048, p (ix2 r j) * b (ix2 j f) := by
  simp only [matmul]
  rw [Ideal.matmul_constant_zero_apply, ← Equiv.sum_comp (ValueIdx.contrEquiv1 dot_S1024x2048_S2048x64_S1024x64_1_0_0_1_n_n 2048 rfl rfl).symm]
  refine Finset.sum_congr rfl fun k _ => ?_
  have hk := ValueIdx.contrEquiv1_symm_val dot_S1024x2048_S2048x64_S1024x64_1_0_0_1_n_n 2048 rfl rfl k
  have el : dot_S1024x2048_S2048x64_S1024x64_1_0_0_1_n_n.lhsIdx (ix2 r f) ((ValueIdx.contrEquiv1 dot_S1024x2048_S2048x64_S1024x64_1_0_0_1_n_n 2048 rfl rfl).symm k) = ix2 r k := funext fun a => Fin.ext (by
    match a with
    | ⟨0, _⟩ => exact pv_lhs_0 _ _
    | ⟨1, _⟩ => exact (pv_lhs_1 _ _).trans hk)
  have er : dot_S1024x2048_S2048x64_S1024x64_1_0_0_1_n_n.rhsIdx (ix2 r f) ((ValueIdx.contrEquiv1 dot_S1024x2048_S2048x64_S1024x64_1_0_0_1_n_n 2048 rfl rfl).symm k) = ix2 k f := funext fun a => Fin.ext (by
    match a with
    | ⟨0, _⟩ => exact (pv_rhs_0 _ _).trans hk
    | ⟨1, _⟩ => exact pv_rhs_1 _ _)
  rw [el, er]

/-! ## The two row reductions read at a row -/

/-- A row's maximum from −∞: the fold of `max` over the row. -/
theorem rowmax_apply (s : FVec Ideal S1024x2048 .f32) (hφ : FKind.Formats .f32)
    (hacc : (0xFF800000#32 : BitVec 32) = FKind.maximumf.neutral .f32 hφ) (r : Fin 1024) :
    multiReduction .maximumf [1] S1024 s 0xFF800000#32 reduces_S1024x2048_S1024 hφ hacc (ix1 r)
      = rowMax (fun j => s (ix2 r j)) := by
  refine (Ideal.multiReduction_maximumf_single s _ reduces_S1024x2048_S1024 hφ hacc (ix1 r)).trans ?_
  have hf : (s ∘ (reduces_S1024x2048_S1024).lift (ix1 r)) = fun k : Fin 2048 => s (ix2 r k) :=
    funext fun k => congrArg s (reduces_lift_ix1 reduces_S1024x2048_S1024 r k)
  rw [hf]
  rfl

/-- A row's total: the sum over the row. -/
theorem rowsum_apply (e : FVec Ideal S1024x2048 .f32) (hφ : FKind.Formats .f32)
    (hacc : (0x00000000#32 : BitVec 32) = FKind.add.neutral .f32 hφ) (r : Fin 1024) :
    multiReduction .add [1] S1024 e 0x00000000#32 reduces_S1024x2048_S1024 hφ hacc (ix1 r)
      = ∑ j : Fin 2048, e (ix2 r j) := by
  refine (Ideal.multiReduction_add_single e _ reduces_S1024x2048_S1024 hφ hacc (ix1 r)).trans ?_
  exact Finset.sum_congr rfl fun k _ => congrArg e (reduces_lift_ix1 reduces_S1024x2048_S1024 r k)

/-! ## One head -/

/-- The query block scaled by the word for one eighth (the change of format is the identity). -/
def scaled (x : FVec Ideal S1024x64 .f32) : FVec Ideal S1024x64 .bf16 :=
  truncf .bf16 (mulf x (broadcast S1024x64 (Scalar.ofBits .f32 0x3E000000#32))) bitsLt_bf16_f32

/-- The weights of a score matrix: each entry less its row's maximum, exponentiated. -/
def weights (s : FVec Ideal S1024x2048 .f32) : FVec Ideal S1024x2048 .f32 :=
  exp (subf s (broadcastTo S1024x2048 (shapeCast S1024x1
    (multiReduction .maximumf [1] S1024 s 0xFF800000#32 reduces_S1024x2048_S1024 (.inl rfl) rfl) shapeCasts_S1024_S1024x1)
    broadcasts_S1024x1_S1024x2048))

/-- One head's result from its scaled queries, keys and values, as the body computes it. -/
def core (qs : FVec Ideal S1024x64 .bf16) (kk vv : FVec Ideal S2048x64 .bf16) : FVec Ideal S1024x64 .f32 :=
  divf
    (matmul dot_S1024x2048_S2048x64_S1024x64_1_0_0_1_n_n none
      (truncf .bf16 (weights (matmul dot_S1024x64_S2048x64_S1024x2048_1_1_0_0_n_n none qs kk (constant S1024x2048 .f32 0x00000000#32))) bitsLt_bf16_f32)
      vv (constant S1024x64 .f32 0x00000000#32))
    (broadcastTo S1024x64 (shapeCast S1024x1
      (multiReduction .add [1] S1024 (weights (matmul dot_S1024x64_S2048x64_S1024x2048_1_1_0_0_n_n none qs kk (constant S1024x2048 .f32 0x00000000#32)))
        0x00000000#32 reduces_S1024x2048_S1024 (.inl rfl) rfl) shapeCasts_S1024_S1024x1)
      broadcasts_S1024x1_S1024x64)

/-- A weight at (r, j): the exponential of the score less the row's maximum. -/
theorem weights_apply (s : FVec Ideal S1024x2048 .f32) (r : Fin 1024) (j : Fin 2048) :
    weights s (ix2 r j) = Ideal.exp (s (ix2 r j) - rowMax (fun j' => s (ix2 r j'))) := by
  unfold weights
  show Ideal.exp (s (ix2 r j) - broadcastTo S1024x2048 _ broadcasts_S1024x1_S1024x2048 (ix2 r j)) = _
  rw [broadcastTo_a1_ab_apply (by decide) _ broadcasts_S1024x1_S1024x2048 r j,
    shapeCast_a_a1_apply _ shapeCasts_S1024_S1024x1 r (0 : Fin 1)]
  exact congrArg (fun m => Ideal.exp (s (ix2 r j) - m)) (rowmax_apply s _ _ r)

/-- One head's result at (r, f), in the scaled queries. -/
theorem core_apply (qs : FVec Ideal S1024x64 .bf16) (kk vv : FVec Ideal S2048x64 .bf16) (r : Fin 1024) (f : Fin 64) :
    core qs kk vv (ix2 r f)
      = Ideal.div
          (∑ j : Fin 2048, Ideal.exp ((∑ d : Fin 64, qs (ix2 r d) * kk (ix2 j d))
              - rowMax (fun j' => ∑ d : Fin 64, qs (ix2 r d) * kk (ix2 j' d))) * vv (ix2 j f))
          (∑ j : Fin 2048, Ideal.exp ((∑ d : Fin 64, qs (ix2 r d) * kk (ix2 j d))
              - rowMax (fun j' => ∑ d : Fin 64, qs (ix2 r d) * kk (ix2 j' d)))) := by
  unfold core
  show Ideal.div (matmul dot_S1024x2048_S2048x64_S1024x64_1_0_0_1_n_n none _ vv (constant S1024x64 .f32 0x00000000#32) (ix2 r f))
      (broadcastTo S1024x64 _ broadcasts_S1024x1_S1024x64 (ix2 r f)) = _
  rw [wv_apply, broadcastTo_a1_ab_apply (by decide) _ broadcasts_S1024x1_S1024x64 r f,
    shapeCast_a_a1_apply _ shapeCasts_S1024_S1024x1 r (0 : Fin 1)]
  have hw : ∀ j : Fin 2048, weights (matmul dot_S1024x64_S2048x64_S1024x2048_1_1_0_0_n_n none qs kk (constant S1024x2048 .f32 0x00000000#32)) (ix2 r j)
      = Ideal.exp ((∑ d : Fin 64, qs (ix2 r d) * kk (ix2 j d)) - rowMax (fun j' => ∑ d : Fin 64, qs (ix2 r d) * kk (ix2 j' d))) := fun j => by
    rw [weights_apply, scores_apply]
    exact congrArg (fun m => Ideal.exp ((∑ d : Fin 64, qs (ix2 r d) * kk (ix2 j d)) - rowMax m))
      (funext fun j' => scores_apply qs kk r j')
  refine congrArg₂ Ideal.div (Finset.sum_congr rfl fun j _ => ?_)
    ((rowsum_apply _ _ _ r).trans (Finset.sum_congr rfl fun j _ => hw j))
  show weights _ (ix2 r j) * vv (ix2 j f) = _
  rw [hw j]

/-- One head's result at (r, f) from the unscaled query block: `rowScaleFirst` of query row r, the keys and value column f. -/
theorem head_apply (x : FVec Ideal S1024x64 .f32) (kk vv : FVec Ideal S2048x64 .bf16) (r : Fin 1024) (f : Fin 64) :
    core (scaled x) kk vv (ix2 r f)
      = rowScaleFirst (fun d => x (ix2 r d)) (fun j d => kk (ix2 j d)) (fun j => vv (ix2 j f)) := by
  rw [core_apply]
  rfl

/-! ## The payloads are those operations -/

theorem pay2_eq (v0 : Vec Ideal S1x1x1024x64 .f32) (v5 v7 : Vec Ideal S1x1x2048x64 .bf16) :
    k0_pay2 (F := Ideal) v0 v5 v7
      = core (scaled (shapeCast S1024x64 v0 shapeCasts_S1x1x1024x64_S1024x64))
          (shapeCast S2048x64 v5 shapeCasts_S1x1x2048x64_S2048x64) (shapeCast S2048x64 v7 shapeCasts_S1x1x2048x64_S2048x64) := rfl

theorem pay3_eq (v21 : Vec Ideal S1x1x1024x64 .f32) :
    k0_pay3 (F := Ideal) v21 = scaled (shapeCast S1024x64 v21 shapeCasts_S1x1x1024x64_S1024x64) := rfl

theorem pay4_eq (v26 : Vec Ideal S1x1x2048x64 .bf16) :
    k0_pay4 (F := Ideal) v26 = shapeCast S2048x64 v26 shapeCasts_S1x1x2048x64_S2048x64 := rfl

theorem pay1_eq (v20 : FVec Ideal S1024x64 .f32) (v25 : FVec Ideal S1024x64 .bf16) (v27 : FVec Ideal S2048x64 .bf16) (v28 : Vec Ideal S1x1x2048x64 .bf16) :
    k0_pay1 (F := Ideal) v20 v25 v27 v28
      = shapeCast S1x1024x128 (concatenate S1024x128 1 [⟨S1024x64, v20⟩,
          ⟨S1024x64, core v25 v27 (shapeCast S2048x64 v28 shapeCasts_S1x1x2048x64_S2048x64)⟩] concatenates_S1024x64_S1024x64_S1024x128_d1)
          shapeCasts_S1024x128_S1x1024x128 := rfl

end Cert.Attention.Payload

end
-- ==== Proof.BlockValue.lean ====
/-
  The block one grid point stores, entry by entry, in its input blocks.

  A grid point loads a query block [1, 2, 1024, 64] (two heads, 1024 query rows) and the key and value
  blocks [1, 2, 2048, 64] of the same two heads, and stores [1, 1024, 128]: row r, lane c holds head
  c / 64's result for query row r and feature c mod 64.
-/
import proofs.«424252_j15444702396493_3_alg».proof.Proof.Gen.KernelIdeal.Frame
import proofs.«424252_j15444702396493_3_alg».proof.Proof.PayloadValue

noncomputable section

namespace Cert.Attention.Block

open Cert.KernelIdeal Cert.KernelIdeal.Gen Cert.Attention Cert.Attention.Payload Cert.ColumnLayout
open Idealize.ShloMosaic Idealize.ShloMosaic.ValueIdx

theorem hz3 : (![0, 0, 0] : Fin 3 → Nat) = fun _ => 0 := funext fun a => by fin_cases a <;> rfl

/-! ## The loads: head 0 and head 1 of each input block -/

theorem ldq0 (x0 : Vec Ideal S1x2x1024x64 .f32) (r : Fin 1024) (d : Fin 64) :
    View.ld x0 r0_0 (ix4 (0 : Fin 1) (0 : Fin 1) r d) = x0 (ix4 (0 : Fin 1) (0 : Fin 2) r d) := by
  refine congrArg x0 (funext fun a => Fin.ext ?_)
  match a with
  | ⟨0, _⟩ => rfl
  | ⟨1, _⟩ => rfl
  | ⟨2, _⟩ => show 0 + 1 * r.val = r.val; omega
  | ⟨3, _⟩ => show 0 + 1 * d.val = d.val; omega

theorem ldq1 (x0 : Vec Ideal S1x2x1024x64 .f32) (r : Fin 1024) (d : Fin 64) :
    View.ld x0 r0_2 (ix4 (0 : Fin 1) (0 : Fin 1) r d) = x0 (ix4 (0 : Fin 1) (1 : Fin 2) r d) := by
  refine congrArg x0 (funext fun a => Fin.ext ?_)
  match a with
  | ⟨0, _⟩ => rfl
  | ⟨1, _⟩ => rfl
  | ⟨2, _⟩ => show 0 + 1 * r.val = r.val; omega
  | ⟨3, _⟩ => show 0 + 1 * d.val = d.val; omega

theorem ldk0 (x1 : Vec Ideal S1x2x2048x64 .bf16) (j : Fin 2048) (d : Fin 64) :
    View.ld x1 r0_1 (ix4 (0 : Fin 1) (0 : Fin 1) j d) = x1 (ix4 (0 : Fin 1) (0 : Fin 2) j d) := by
  refine congrArg x1 (funext fun a => Fin.ext ?_)
  match a with
  | ⟨0, _⟩ => rfl
  | ⟨1, _⟩ => rfl
  | ⟨2, _⟩ => show 0 + 1 * j.val = j.val; omega
  | ⟨3, _⟩ => show 0 + 1 * d.val = d.val; omega

theorem ldk1 (x1 : Vec Ideal S1x2x2048x64 .bf16) (j : Fin 2048) (d : Fin 64) :
    View.ld x1 r0_3 (ix4 (0 : Fin 1) (0 : Fin 1) j d) = x1 (ix4 (0 : Fin 1) (1 : Fin 2) j d) := by
  refine congrArg x1 (funext fun a => Fin.ext ?_)
  match a with
  | ⟨0, _⟩ => rfl
  | ⟨1, _⟩ => rfl
  | ⟨2, _⟩ => show 0 + 1 * j.val = j.val; omega
  | ⟨3, _⟩ => show 0 + 1 * d.val = d.val; omega

/-! ## The stored block -/

/-- Lanes 0 … 63: the first head. -/
theorem store_head0 (x0 : Vec Ideal S1x2x1024x64 .f32) (x1 x2 : Vec Ideal S1x2x2048x64 .bf16)
    (u : Fin 1) (r : Fin 1024) (f : Fin 64) :
    out0_3 x0 x1 x2 (ix3 u r (⟨f.val, by omega⟩ : Fin 128))
      = rowScaleFirst (fun d => x0 (ix4 (0 : Fin 1) (0 : Fin 2) r d)) (fun j d => x1 (ix4 (0 : Fin 1) (0 : Fin 2) j d))
          (fun j => x2 (ix4 (0 : Fin 1) (0 : Fin 2) j f)) := by
  unfold out0_3
  rw [View.canon_unit_zero hz3, pay1_eq, pay2_eq,
    shapeCast_ab_1ab_apply _ shapeCasts_S1024x128_S1x1024x128 u r _,
    concatenate_pair_apply_left (s₁ := S1024x64) (s₂ := S1024x64) (1 : Fin 2) _ _ concatenates_S1024x64_S1024x64_S1024x128_d1
      (ix2 r (⟨f.val, by omega⟩ : Fin 128)) rfl
      (ix2 r f) (fun b => by match b with | ⟨0, _⟩ => rfl | ⟨1, _⟩ => rfl),
    head_apply]
  simp only [shapeCast_11ab_ab_apply]
  exact congr (congr (congrArg rowScaleFirst (funext fun d => ldq0 x0 r d)) (funext fun j => funext fun d => ldk0 x1 j d))
    (funext fun j => ldk0 x2 j f)

/-- Lanes 64 … 127: the second head. -/
theorem store_head1 (x0 : Vec Ideal S1x2x1024x64 .f32) (x1 x2 : Vec Ideal S1x2x2048x64 .bf16)
    (u : Fin 1) (r : Fin 1024) (f : Fin 64) :
    out0_3 x0 x1 x2 (ix3 u r (⟨64 + f.val, by omega⟩ : Fin 128))
      = rowScaleFirst (fun d => x0 (ix4 (0 : Fin 1) (1 : Fin 2) r d)) (fun j d => x1 (ix4 (0 : Fin 1) (1 : Fin 2) j d))
          (fun j => x2 (ix4 (0 : Fin 1) (1 : Fin 2) j f)) := by
  unfold out0_3
  rw [View.canon_unit_zero hz3, pay1_eq, pay3_eq, pay4_eq,
    shapeCast_ab_1ab_apply _ shapeCasts_S1024x128_S1x1024x128 u r _,
    concatenate_pair_apply_right (s₁ := S1024x64) (s₂ := S1024x64) (1 : Fin 2) _ _ concatenates_S1024x64_S1024x64_S1024x128_d1
      (ix2 r (⟨64 + f.val, by omega⟩ : Fin 128)) rfl rfl
      (ix2 r f) (fun b hb => by match b with | ⟨0, _⟩ => rfl | ⟨1, _⟩ => exact absurd rfl hb)
      (by show f.val + 64 = 64 + f.val; omega),
    head_apply]
  simp only [shapeCast_11ab_ab_apply]
  exact congr (congr (congrArg rowScaleFirst (funext fun d => ldq1 x0 r d)) (funext fun j => funext fun d => ldk1 x1 j d))
    (funext fun j => ldk1 x2 j f)

end Cert.Attention.Block

end
-- ==== Proof.KernelValue.lean ====
/-
  The kernel program's result array, entry by entry, is `outScaleFirst` of its three arguments.

  The grid has 2 · 8 · 2 points (batch, pair of heads, half of the query positions).  Point (b, p, t)
  reads query rows 1024 t … 1024 t + 1023 of heads 2p and 2p + 1 and all keys and values of those two
  heads (the keys and values after a change of format, which is the identity on the ideal values), and
  writes rows 1024 t … of lanes 128 p … 128 p + 127 of a [2, 2048, 1024] array.  The blocks tile that
  array, so it ends holding, at (b, s, c), head c / 64's result for query position s and feature
  c mod 64.  A reshape to [2, 2048, 16, 64] splits the lane c = 64 h + f into head h and feature f.
-/
import proofs.«424252_j15444702396493_3_alg».proof.Proof.Gen.KernelIdeal.Frame
import proofs.«424252_j15444702396493_3_alg».proof.Proof.BlockValue
import Idealize.ShloMosaic.Lib.Pipeline.Value
import Idealize.ShloMosaic.Lib.StableHlo.Run
import Idealize.ShloMosaic.Lib.Tactic

noncomputable section

namespace Cert.Attention.Kernel

open Cert.KernelIdeal Cert.KernelIdeal.Gen Cert.Attention Cert.Attention.Block
open Idealize.ShloMosaic Idealize.ShloMosaic.TcCoe Idealize.SL.Sem Idealize.ShloMosaic.ValueIdx
open Idealize.ShloMosaic.Pipeline (Dat)

/-- A [batch, head, position, feature] array of extended reals. -/
abbrev Arr : Type := S2x16x2048x64.Idx → EReal

/-- One result entry by batch, head, query position and feature. -/
def entry (Q K W : Arr) (b : Fin 2) (h : Fin 16) (s : Fin 2048) (f : Fin 64) : EReal :=
  rowScaleFirst (fun d => Q (ix4 b h s d)) (fun j d => K (ix4 b h j d)) (fun j => W (ix4 b h j f))

theorem entry_congr (Q K W : Arr) {b b' : Fin 2} {h h' : Fin 16} {s s' : Fin 2048} {f f' : Fin 64}
    (eb : b.val = b'.val) (eh : h.val = h'.val) (es : s.val = s'.val) (ef : f.val = f'.val) :
    entry Q K W b h s f = entry Q K W b' h' s' f' := by
  obtain rfl := Fin.ext eb; obtain rfl := Fin.ext eh; obtain rfl := Fin.ext es; obtain rfl := Fin.ext ef; rfl

/-- The array the region writes, [batch, position, 16 · 64 lanes]: lane c is head c / 64, feature c mod 64. -/
def flat (Q K W : Arr) : S2x2048x1024.Idx → EReal := fun i =>
  entry Q K W ⟨(i 0).val, (i 0).isLt⟩ ⟨(i 2).val / 64, by have h : (i 2).val < 1024 := (i 2).isLt; omega⟩
    ⟨(i 1).val, (i 1).isLt⟩ ⟨(i 2).val % 64, Nat.mod_lt _ (by decide)⟩

/-! ## One block against the whole arrays -/

/-- If the three input blocks are the rows of `Q`, `K`, `W` that grid point (b, p, t) reads, the stored block at `y` is
    `flat Q K W` at the array index `i` that `y` lands on. -/
theorem block_eq (x0 : Vec Ideal S1x2x1024x64 .f32) (x1 x2 : Vec Ideal S1x2x2048x64 .bf16) (Q K W : Arr)
    (b t p : ℕ) (hb : b < 2) (ht : t < 2) (hp : p < 8)
    (hx0 : ∀ (hh : Fin 2) (r : Fin 1024) (d : Fin 64),
      x0 (ix4 (0 : Fin 1) hh r d) = Q (ix4 (⟨b, hb⟩ : Fin 2) (⟨2 * p + hh.val, by omega⟩ : Fin 16) (⟨1024 * t + r.val, by omega⟩ : Fin 2048) d))
    (hx1 : ∀ (hh : Fin 2) (j : Fin 2048) (d : Fin 64),
      x1 (ix4 (0 : Fin 1) hh j d) = K (ix4 (⟨b, hb⟩ : Fin 2) (⟨2 * p + hh.val, by omega⟩ : Fin 16) j d))
    (hx2 : ∀ (hh : Fin 2) (j : Fin 2048) (d : Fin 64),
      x2 (ix4 (0 : Fin 1) hh j d) = W (ix4 (⟨b, hb⟩ : Fin 2) (⟨2 * p + hh.val, by omega⟩ : Fin 16) j d))
    (y : S1x1024x128.Idx) (i : S2x2048x1024.Idx)
    (hi0 : (i 0).val = b) (hi1 : (i 1).val = 1024 * t + (y 1).val) (hi2 : (i 2).val = 128 * p + (y 2).val) :
    out0_3 x0 x1 x2 y = flat Q K W i := by
  obtain ⟨u, r, cc, rfl⟩ : ∃ (u : Fin 1) (r : Fin 1024) (cc : Fin 128), y = ix3 u r cc := ⟨y 0, y 1, y 2, eq_ix3 y⟩
  have hi1' : (i 1).val = 1024 * t + r.val := hi1
  have hi2' : (i 2).val = 128 * p + cc.val := hi2
  have hrow : ∀ (hh : Fin 2) (f : Fin 64),
      rowScaleFirst (fun d => x0 (ix4 (0 : Fin 1) hh r d)) (fun j d => x1 (ix4 (0 : Fin 1) hh j d)) (fun j => x2 (ix4 (0 : Fin 1) hh j f))
        = entry Q K W (⟨b, hb⟩ : Fin 2) (⟨2 * p + hh.val, by omega⟩ : Fin 16) (⟨1024 * t + r.val, by omega⟩ : Fin 2048) f := fun hh f => by
    unfold entry
    simp only [hx0, hx1, hx2]
  unfold flat
  by_cases hc : cc.val < 64
  · refine (store_head0 x0 x1 x2 u r (⟨cc.val, hc⟩ : Fin 64)).trans ?_
    rw [hrow (0 : Fin 2) (⟨cc.val, hc⟩ : Fin 64)]
    refine entry_congr Q K W hi0.symm ?_ hi1'.symm ?_
    · show 2 * p + 0 = (i 2).val / 64; rw [hi2']; omega
    · show cc.val = (i 2).val % 64; rw [hi2']; omega
  · have hcc : cc.val < 128 := cc.isLt
    have hf : cc.val - 64 < 64 := by omega
    have ecc : cc = (⟨64 + (⟨cc.val - 64, hf⟩ : Fin 64).val, by show 64 + (cc.val - 64) < 128; omega⟩ : Fin 128) :=
      Fin.ext (by show cc.val = 64 + (cc.val - 64); omega)
    refine (congrArg (fun z => out0_3 x0 x1 x2 (ix3 u r z)) ecc).trans ?_
    refine (store_head1 x0 x1 x2 u r (⟨cc.val - 64, hf⟩ : Fin 64)).trans ?_
    rw [hrow (1 : Fin 2) (⟨cc.val - 64, hf⟩ : Fin 64)]
    refine entry_congr Q K W hi0.symm ?_ hi1'.symm ?_
    · show 2 * p + 1 = (i 2).val / 64; rw [hi2']; omega
    · show cc.val - 64 = (i 2).val % 64; rw [hi2']; omega

/-! ## The grid -/

variable (m : (ℓ : Loc nD τ sig) → Buf (Elt Ideal) ℓ) (ρ : Dev nD → PrngReg)

/-- The windows' index maps, decided over the 32 grid points: the inputs' blocks follow the output's (batch and head pair;
    the queries also the position half), the keys' and values' blocks take all positions, and the output's block indices
    stay in their ranges. -/
theorem idx_facts : ∀ t : Fin cfg0.N,
    win0_0.index t (0 : Fin 4) = win0_3.index t (0 : Fin 3) ∧ win0_0.index t (1 : Fin 4) = win0_3.index t (2 : Fin 3)
    ∧ win0_0.index t (2 : Fin 4) = win0_3.index t (1 : Fin 3) ∧ win0_0.index t (3 : Fin 4) = 0
    ∧ win0_1.index t (0 : Fin 4) = win0_3.index t (0 : Fin 3) ∧ win0_1.index t (1 : Fin 4) = win0_3.index t (2 : Fin 3)
    ∧ win0_1.index t (2 : Fin 4) = 0 ∧ win0_1.index t (3 : Fin 4) = 0
    ∧ win0_2.index t (0 : Fin 4) = win0_3.index t (0 : Fin 3) ∧ win0_2.index t (1 : Fin 4) = win0_3.index t (2 : Fin 3)
    ∧ win0_2.index t (2 : Fin 4) = 0 ∧ win0_2.index t (3 : Fin 4) = 0
    ∧ win0_3.index t (0 : Fin 3) < 2 ∧ win0_3.index t (1 : Fin 3) < 2 ∧ win0_3.index t (2 : Fin 3) < 8 :=
  (by decide +kernel : ∀ t : Fin grid0.N, _)

/-- Every block of the output array is some point's. -/
theorem idx_onto : ∀ (q0 : Fin 2) (q1 : Fin 2) (q2 : Fin 8), ∃ t : Fin cfg0.N, win0_3.index t = ![q0.val, q1.val, q2.val] :=
  (by decide +kernel : ∀ (q0 : Fin 2) (q1 : Fin 2) (q2 : Fin 8), ∃ t : Fin grid0.N, win0_3.index t = ![q0.val, q1.val, q2.val])

/-! ## The input blocks as rows of the arrays the region finds -/

theorem iblk0_apply (c : Dev nD) (t : Fin cfg0.N) (hh : Fin 2) (r : Fin 1024) (d : Fin 64) (i : S2x16x2048x64.Idx)
    (h0 : (i 0).val = win0_3.index t (0 : Fin 3)) (h1 : (i 1).val = 2 * win0_3.index t (2 : Fin 3) + hh.val)
    (h2 : (i 2).val = 1024 * win0_3.index t (1 : Fin 3) + r.val) (h3 : (i 3).val = d.val) :
    (iblk m c 0 t : Vec Ideal S1x2x1024x64 .f32) (ix4 (0 : Fin 1) hh r d) = (V m c main_arg0 : Arr) i := by
  obtain ⟨e0, e1, e2, e3, -⟩ := idx_facts t
  unfold iblk
  rw [View.read_apply]
  show V m c main_arg0 _ = V m c main_arg0 _
  congr 1
  funext a
  apply Fin.ext
  match a with
  | ⟨0, _⟩ => show win0_0.index t (0 : Fin 4) * 1 + 1 * 0 = (i 0).val; rw [h0, e0]; omega
  | ⟨1, _⟩ => show win0_0.index t (1 : Fin 4) * 2 + 1 * hh.val = (i 1).val; rw [h1, e1]; omega
  | ⟨2, _⟩ => show win0_0.index t (2 : Fin 4) * 1024 + 1 * r.val = (i 2).val; rw [h2, e2]; omega
  | ⟨3, _⟩ => show win0_0.index t (3 : Fin 4) * 64 + 1 * d.val = (i 3).val; rw [h3, e3]; omega

theorem iblk1_apply (c : Dev nD) (t : Fin cfg0.N) (hh : Fin 2) (j : Fin 2048) (d : Fin 64) (i : S2x16x2048x64.Idx)
    (h0 : (i 0).val = win0_3.index t (0 : Fin 3)) (h1 : (i 1).val = 2 * win0_3.index t (2 : Fin 3) + hh.val)
    (h2 : (i 2).val = j.val) (h3 : (i 3).val = d.val) :
    (iblk m c 1 t : Vec Ideal S1x2x2048x64 .bf16) (ix4 (0 : Fin 1) hh j d) = (V m c main_v0 : Arr) i := by
  obtain ⟨-, -, -, -, e0, e1, e2, e3, -⟩ := idx_facts t
  unfold iblk
  rw [View.read_apply]
  show V m c main_v0 _ = V m c main_v0 _
  congr 1
  funext a
  apply Fin.ext
  match a with
  | ⟨0, _⟩ => show win0_1.index t (0 : Fin 4) * 1 + 1 * 0 = (i 0).val; rw [h0, e0]; omega
  | ⟨1, _⟩ => show win0_1.index t (1 : Fin 4) * 2 + 1 * hh.val = (i 1).val; rw [h1, e1]; omega
  | ⟨2, _⟩ => show win0_1.index t (2 : Fin 4) * 2048 + 1 * j.val = (i 2).val; rw [h2, e2]; omega
  | ⟨3, _⟩ => show win0_1.index t (3 : Fin 4) * 64 + 1 * d.val = (i 3).val; rw [h3, e3]; omega

theorem iblk2_apply (c : Dev nD) (t : Fin cfg0.N) (hh : Fin 2) (j : Fin 2048) (d : Fin 64) (i : S2x16x2048x64.Idx)
    (h0 : (i 0).val = win0_3.index t (0 : Fin 3)) (h1 : (i 1).val = 2 * win0_3.index t (2 : Fin 3) + hh.val)
    (h2 : (i 2).val = j.val) (h3 : (i 3).val = d.val) :
    (iblk m c 2 t : Vec Ideal S1x2x2048x64 .bf16) (ix4 (0 : Fin 1) hh j d) = (V m c main_v1 : Arr) i := by
  obtain ⟨-, -, -, -, -, -, -, -, e0, e1, e2, e3, -⟩ := idx_facts t
  unfold iblk
  rw [View.read_apply]
  show V m c main_v1 _ = V m c main_v1 _
  congr 1
  funext a
  apply Fin.ext
  match a with
  | ⟨0, _⟩ => show win0_2.index t (0 : Fin 4) * 1 + 1 * 0 = (i 0).val; rw [h0, e0]; omega
  | ⟨1, _⟩ => show win0_2.index t (1 : Fin 4) * 2 + 1 * hh.val = (i 1).val; rw [h1, e1]; omega
  | ⟨2, _⟩ => show win0_2.index t (2 : Fin 4) * 2048 + 1 * j.val = (i 2).val; rw [h2, e2]; omega
  | ⟨3, _⟩ => show win0_2.index t (3 : Fin 4) * 64 + 1 * d.val = (i 3).val; rw [h3, e3]; omega

/-! ## What a point writes back, the cover, the array -/

/-- The array the region's output ends holding, in the arrays the region finds. -/
abbrev flatV (c : Dev nD) : S2x2048x1024.Idx → EReal :=
  flat (V m c main_arg0 : Arr) (V m c main_v0 : Arr) (V m c main_v1 : Arr)

/-- What point `t` writes back is block `t` of `flatV`. -/
theorem flushed_eq (c : Dev nD) (t : Fin cfg0.N) :
    (dats m 0 c).flushed 3 t = ((cfg0.win 3).blk t).view.read (Elt Ideal) (flatV m c) := by
  show (cfg0.win 3).cut (grid0.coords t) ((dats m 0 c).after 3 t) = _
  rw [after0_3]
  obtain ⟨-, -, -, -, -, -, -, -, -, -, -, -, l0, l1, l2⟩ := idx_facts t
  funext y
  show out0_3 (iblk m c 0 t) (iblk m c 1 t) (iblk m c 2 t) y = flatV m c (((cfg0.win 3).blk t).view.emb y)
  refine block_eq (iblk m c 0 t) (iblk m c 1 t) (iblk m c 2 t) _ _ _
    (win0_3.index t (0 : Fin 3)) (win0_3.index t (1 : Fin 3)) (win0_3.index t (2 : Fin 3)) l0 l1 l2
    (fun hh r d => iblk0_apply m c t hh r d _ rfl rfl rfl rfl)
    (fun hh j d => iblk1_apply m c t hh j d _ rfl rfl rfl rfl)
    (fun hh j d => iblk2_apply m c t hh j d _ rfl rfl rfl rfl)
    y _ ?_ ?_ ?_
  · show win0_3.index t (0 : Fin 3) * 1 + 1 * (y 0).val = win0_3.index t (0 : Fin 3)
    have : (y 0).val < 1 := (y 0).isLt
    omega
  · show win0_3.index t (1 : Fin 3) * 1024 + 1 * (y 1).val = 1024 * win0_3.index t (1 : Fin 3) + (y 1).val
    omega
  · show win0_3.index t (2 : Fin 3) * 128 + 1 * (y 2).val = 128 * win0_3.index t (2 : Fin 3) + (y 2).val
    omega

/-- An index of the array is in point `t`'s block iff each coordinate is in the block's range on its axis. -/
theorem mem_blk (t : Fin cfg0.N) (i : S2x2048x1024.Idx) :
    i ∈ ((cfg0.win 3).blk t).view.set ↔ ∀ a : Fin 3, win0_3.index t a * S1x1024x128.size a ≤ (i a).val
      ∧ (i a).val < win0_3.index t a * S1x1024x128.size a + S1x1024x128.size a := by
  show i ∈ ((View.whole main_v2).slice (win0_3.rect t)).set ↔ _
  rw [View.set_slice_whole, Rect.mem_set_unit]
  exact Iff.rfl

/-- Every index of the array is in some point's block: the blocks tile it. -/
theorem cover (i : S2x2048x1024.Idx) :
    ∃ t : Fin cfg0.N, (cfg0.win 3).flush t = true ∧ i ∈ ((cfg0.win 3).blk t).view.set := by
  have hi0 : (i 0).val < 2 := (i 0).isLt
  have hi1 : (i 1).val < 2048 := (i 1).isLt
  have hi2 : (i 2).val < 1024 := (i 2).isLt
  obtain ⟨t, ht⟩ := idx_onto ⟨(i 0).val, hi0⟩ ⟨(i 1).val / 1024, by omega⟩ ⟨(i 2).val / 128, by omega⟩
  have q0 : win0_3.index t (0 : Fin 3) = (i 0).val := congrFun ht 0
  have q1 : win0_3.index t (1 : Fin 3) = (i 1).val / 1024 := congrFun ht 1
  have q2 : win0_3.index t (2 : Fin 3) = (i 2).val / 128 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 128 ≤ (i 2).val ∧ (i 2).val < win0_3.index t (2 : Fin 3) * 128 + 128; omega

/-- The region's output array after the run. -/
theorem final (c : Dev nD) : (dats m 0 c).arrAt 3 cfg0.N = flatV m c :=
  (dats m 0 c).arrAt_eq_of_cover 3 (flatV m c) (fun t _ => flushed_eq m c t) cover

end Cert.Attention.Kernel

end
-- ==== Proof.KernelRun.lean ====
/-
  The kernel program's run, read: its result ends at `outScaleFirst` of the three arguments.

  After the region the program reshapes the [2, 2048, 1024] array to [2, 2048, 16, 64]: entry (b, s, h, f) is
  the array's entry (b, s, 64 h + f), which is head h's result for query position s and feature f.  The keys
  and values the region reads are the arguments after a change of format, the identity on the ideal values.
-/
import proofs.«424252_j15444702396493_3_alg».proof.Proof.Gen.KernelIdeal.Frame
import proofs.«424252_j15444702396493_3_alg».proof.Proof.KernelValue
import Idealize.ShloMosaic.Lib.Pipeline.Value
import Idealize.ShloMosaic.Lib.StableHlo.Run
import Idealize.ShloMosaic.Lib.Tactic

noncomputable section

namespace Cert.Attention.Kernel

open Cert.KernelIdeal Cert.KernelIdeal.Gen Cert.Attention
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The keys the region finds are the second argument (its format changed, which is the identity here). -/
theorem keys_eq (c : Dev nD) : (V m c main_v0 : Arr) = m ((c : Thread nD τ).loc main_arg1) := by
  show StableHlo.after hostOps0 (fun b => m (c, b)) (Proc.devRef .tc main_v0) = _
  after_results
  rfl

/-- The values the region finds are the third argument. -/
theorem values_eq (c : Dev nD) : (V m c main_v1 : Arr) = m ((c : Thread nD τ).loc main_arg2) := by
  show StableHlo.after hostOps0 (fun b => m (c, b)) (Proc.devRef .tc main_v1) = _
  after_results
  rfl

/-- The queries the region finds are the first argument. -/
theorem queries_eq (c : Dev nD) : (V m c main_arg0 : Arr) = m ((c : Thread nD τ).loc main_arg0) := V_main_arg0 m c

/-- The program's result buffer after the reshape that follows the region. -/
theorem result_eq (c : Dev nD) :
    Pipeline.afterTail₀ cfgs (dats m) 0 (V0 m) [hostOps1] c main_v3
      = outScaleFirst (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  funext i
  obtain ⟨b, s, h, f, rfl⟩ : ∃ (b : Fin 2) (s : Fin 2048) (h : Fin 16) (f : Fin 64), i = ix4 b s h f :=
    ⟨i 0, i 1, i 2, i 3, eq_ix4 i⟩
  have hf : f.val < 64 := f.isLt
  have hh : h.val < 16 := h.isLt
  show shapeCast S2x2048x16x64 (Pipeline.withArrays spec0 c (V0 m c) (fun w => (dats m 0 c).arrAt w cfg0.N) (Proc.devRef .tc main_v2))
      shapeCasts_S2x2048x1024_S2x2048x16x64 (ix4 b s h f) = _
  refine (shapeCast_apply _ shapeCasts_S2x2048x1024_S2x2048x16x64 (ix4 b s h f)
    (ix3 b s (⟨64 * h.val + f.val, by omega⟩ : Fin 1024)) (by
      rw [Shape.rowMajor_val_three, Shape.rowMajor_val_four]
      show (b.val * 2048 + s.val) * 1024 + (64 * h.val + f.val) = ((b.val * 2048 + s.val) * 16 + h.val) * 64 + f.val
      omega)).trans ?_
  rw [show Pipeline.withArrays spec0 c (V0 m c) (fun w => (dats m 0 c).arrAt w cfg0.N) (Proc.devRef .tc main_v2)
      = (dats m 0 c).arrAt 3 cfg0.N from Pipeline.withArrays_arr spec0 launch0.win.arr_inj c _ _ 3, final m c]
  show entry (V m c main_arg0 : Arr) (V m c main_v0 : Arr) (V m c main_v1 : Arr) ⟨b.val, _⟩ ⟨(64 * h.val + f.val) / 64, _⟩ ⟨s.val, _⟩
      ⟨(64 * h.val + f.val) % 64, _⟩ = _
  rw [entry_congr _ _ _ (b' := b) (h' := h) (s' := s) (f' := f) rfl (by show (64 * h.val + f.val) / 64 = h.val; omega) rfl
    (by show (64 * h.val + f.val) % 64 = f.val; omega), queries_eq, keys_eq, values_eq]
  rfl

/-- Every weakly fair execution of the kernel program terminates with its result at `outScaleFirst` of the arguments and
    the arguments unchanged. -/
theorem run : θ_run defs (onTc (τ := τ) (main (F := Ideal))) ⟨m, fun _ => 0, ρ⟩ fun r => ∀ c : Dev nD,
      r.2.mem ((c.tc : Thread nD τ).loc main_v3)
        = outScaleFirst (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Attention.Kernel

end
-- ==== Proof.lean ====
/-
  Fused scaled dot-product attention against its plain reference, over the extended reals.

  Both programs take queries, keys and values of shape [2, 16, 2048, 64] and return, for each batch b,
  query position s, head h and feature f, the number
      Σ_j exp (x_j − max_j' x_j') · v[b, h, j, f] / Σ_j exp (x_j − max_j' x_j'),   x_j = (Σ_d q[b, h, s, d] · k[b, h, j, d]) / 8.
  The kernel multiplies the queries by one eighth before the score sum and divides by the total of the
  weights after the weighted sum of the values (`outScaleFirst`, Proof/KernelRun.lean); the reference
  divides the score sum by eight and normalises each weight before the weighted sum (`outDivideLast`,
  Proof/RefValue.lean).  Moving a factor across a sum and a quotient across a sum is sound only on finite
  numbers: the precondition makes every input entry a real (Proof/Finite.lean), the scores are then real,
  their maximum over the 2048 keys is real, every weight is a positive real and so is their total, and
  the two arrangements agree by distributivity (Proof/Algebra.lean).  The idealized kernel is the kernel's
  own text read at the ideal values (no operation was rewritten), so that claim has nothing to state.
-/
import proofs.«424252_j15444702396493_3_alg».proof.Defs
import proofs.«424252_j15444702396493_3_alg».proof.Proof.Gen.Kernel
import proofs.«424252_j15444702396493_3_alg».proof.Proof.Gen.Kernel.Skeleton
import proofs.«424252_j15444702396493_3_alg».proof.Proof.Gen.Kernel.Launch
import proofs.«424252_j15444702396493_3_alg».proof.Proof.Gen.Kernel.Points
import proofs.«424252_j15444702396493_3_alg».proof.Proof.Gen.Kernel.Frame
import proofs.«424252_j15444702396493_3_alg».proof.Proof.Gen.KernelIdeal
import proofs.«424252_j15444702396493_3_alg».proof.Proof.Gen.KernelIdeal.Skeleton
import proofs.«424252_j15444702396493_3_alg».proof.Proof.Gen.KernelIdeal.Launch
import proofs.«424252_j15444702396493_3_alg».proof.Proof.Gen.KernelIdeal.Points
import proofs.«424252_j15444702396493_3_alg».proof.Proof.Gen.KernelIdeal.Frame
import proofs.«424252_j15444702396493_3_alg».proof.Proof.Gen.ReferenceIdeal
import proofs.«424252_j15444702396493_3_alg».proof.Proof.Gen.Pre_finite_inputs
import proofs.«424252_j15444702396493_3_alg».proof.Proof.Gen.ReferenceIdeal.Run
import proofs.«424252_j15444702396493_3_alg».proof.Proof.Gen.ReferenceIdeal.Read
import proofs.«424252_j15444702396493_3_alg».proof.Proof.Algebra
import proofs.«424252_j15444702396493_3_alg».proof.Proof.Finite
import proofs.«424252_j15444702396493_3_alg».proof.Proof.RefValue
import proofs.«424252_j15444702396493_3_alg».proof.Proof.KernelRun
import Idealize.ShloMosaic.Adequacy
import Idealize.ShloMosaic.Init

noncomputable section

namespace Cert.Proof

open Idealize.ShloMosaic Idealize.SL.Sem

/-- The kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- On finite inputs the kernel's result, `outScaleFirst` of the arguments, and the reference's, `outDivideLast` of the
    same arguments, are one array. -/
theorem algebraic : Cert.algebraic_KernelIdeal_ReferenceIdeal := by
  intro m ρ m' ρ' hpre hagree
  refine ⟨fun c => Cert.Attention.outScaleFirst
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Attention.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.Attention.Ref.result_eq, (hagree c).1, (hagree c).2.1, (hagree c).2.2]
  obtain ⟨hq, hk, hv⟩ := Cert.Attention.real_of_finite_inputs _ _ _ (hpre c)
  exact (Cert.Attention.outScaleFirst_eq_outDivideLast _ _ _ hq hk hv).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
